-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1250000x64 : Shape := ⟨2, ![1250000, 64]⟩
abbrev S2x1250000 : Shape := ⟨2, ![2, 1250000]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S1250000x64 .f32) (main_arg2 : IVec S2x1250000 32) (main_arg3 : FVec F S64x128 .f32) (main_arg4 : FVec F S64 .f32) (main_arg5 : FVec F S64x128 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1250000x64 .f32 := Host.absf main_arg1
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S1250000x64 : Shape := ⟨2, ![1250000, 64]⟩
abbrev S2x1250000 : Shape := ⟨2, ![2, 1250000]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1x64 : Shape := ⟨2, ![1, 64]⟩
abbrev S10000x64 : Shape := ⟨2, ![10000, 64]⟩
abbrev S10000x128 : Shape := ⟨2, ![10000, 128]⟩

abbrev nBuf : Space → Nat
  | .hbm => 29
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S1250000x64, .f32⟩
  | .hbm, ⟨2, _⟩ => ⟨S2x1250000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S50000x64, .bf16⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .bf16⟩
  | .hbm, ⟨21, _⟩ => ⟨S1x64, .f32⟩
  | .hbm, ⟨22, _⟩ => ⟨S1250000x64, .f32⟩
  | .hbm, ⟨23, _⟩ => ⟨S_, .f32⟩
  | .hbm, ⟨24, _⟩ => ⟨S50000x64, .f32⟩
  | .hbm, ⟨25, _⟩ => ⟨S1250000x1, .i32⟩
  | .hbm, ⟨26, _⟩ => ⟨S50000x64, .f32⟩
  | .hbm, ⟨27, _⟩ => ⟨S1x64, .f32⟩
  | .hbm, ⟨28, _⟩ => ⟨S50000x64, .f32⟩
  | .local _ .vmem, ⟨0, _⟩ => ⟨S10000x64, .bf16⟩
  | .local _ .vmem, ⟨1, _⟩ => ⟨S10000x64, .bf16⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bitsLt_bf16_f32 : FTy.bits .bf16 < FTy.bits .f32
  bcast_S_S1250000 : S_.BroadcastsInDim S1250000 (![] : Fin 0 → Fin S1250000.rank)
  bcast_S1250000_S1250000x1_0 : S1250000.BroadcastsInDim S1250000x1 (![0] : Fin 1 → Fin S1250000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x64_S10000x64_S10000x128_d1 : Shape.Concatenates [S10000x64, S10000x64] S10000x128 1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S50000x64 : S_.BroadcastsInDim S50000x64 (![] : Fin 0 → Fin S50000x64.rank)
  gather_S50000x64_S1250000x1_S1250000x64_1_0_n_n_0_1_164_wf : GatherDims.WF S50000x64 S1250000x1 S1250000x64 [1] [0] [] [0] [] 1 ![1, 64]
  dot_S10000x128_S64x128_S10000x64_1_1_0_0_n_n_wf : DotDims.WF S10000x128 S64x128 S10000x64 [1] [1] [0] [0] [] []
  scatter_S50000x64_S1250000x1_S1250000x64_1_0_0_1_wf : ScatterDims.WF S50000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .bf16 = 32 ∨ (Rect.block (s := S1250000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1250000x64.size a
  hwx0_1 : ∀ i : grid0.Coords, EltTy.bits .f32 = 32 ∨ (Rect.block (s := S1250000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1250000x64.size a
  hwx0_4 : ∀ i : grid0.Coords, EltTy.bits .f32 = 32 ∨ (Rect.block (s := S1250000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S1250000x64 : Shape := ⟨2, ![1250000, 64]⟩
abbrev S2x1250000 : Shape := ⟨2, ![2, 1250000]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x128 : Shape := ⟨2, ![1250000, 128]⟩
abbrev S128x64 : Shape := ⟨2, ![128, 64]⟩
abbrev S1x64 : Shape := ⟨2, ![1, 64]⟩
abbrev S50000x128 : Shape := ⟨2, ![50000, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1250000x64, .f32⟩
  | .hbm, ⟨2, _⟩ => ⟨S2x1250000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S1250000x128, .f32⟩
  | .hbm, ⟨19, _⟩ => ⟨S128x64, .f32⟩
  | .hbm, ⟨20, _⟩ => ⟨S1250000x64, .f32⟩
  | .hbm, ⟨21, _⟩ => ⟨S1x64, .f32⟩
  | .hbm, ⟨22, _⟩ => ⟨S1250000x64, .f32⟩
  | .hbm, ⟨23, _⟩ => ⟨S1250000x64, .f32⟩
  | .hbm, ⟨24, _⟩ => ⟨S_, .f32⟩
  | .hbm, ⟨25, _⟩ => ⟨S1250000x64, .f32⟩
  | .hbm, ⟨26, _⟩ => ⟨S1250000x64, .f32⟩
  | .hbm, ⟨27, _⟩ => ⟨S1x1250000, .i32⟩
  | .hbm, ⟨28, _⟩ => ⟨S1250000, .i32⟩
  | .hbm, ⟨29, _⟩ => ⟨S_, .f32⟩
  | .hbm, ⟨30, _⟩ => ⟨S50000x64, .f32⟩
  | .hbm, ⟨31, _⟩ => ⟨S1250000x1, .i32⟩
  | .hbm, ⟨32, _⟩ => ⟨S50000x64, .f32⟩
  | .hbm, ⟨33, _⟩ => ⟨S50000x128, .f32⟩
  | .hbm, ⟨34, _⟩ => ⟨S128x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  transposes_S64x128_S128x64_1_0 : S64x128.Transposes [1, 0] S128x64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  slices_S2x1250000_S1x1250000_1_0 : S2x1250000.Slices ![1, 0] S1x1250000
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  dot_S1250000x128_S128x64_S1250000x64_1_0_0_1_n_n_wf : DotDims.WF S1250000x128 S128x64 S1250000x64 [1] [0] [0] [1] [] []
  scatter_S50000x64_S1250000x1_S1250000x64_1_0_0_1_wf : ScatterDims.WF S50000x64 S1250000x1 S1250000x64 [1] [0] [0] 1
  dot_S50000x128_S128x64_S50000x64_1_0_0_1_n_n_wf : DotDims.WF S50000x128 S128x64 S50000x64 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S1250000x128_S128x64_S1250000x64_1_0_0_1_n_n : DotDims S1250000x128 S128x64 S1250000x64 where
  lhsContracting := [1]
  rhsContracting := [0]
  lhsNonContracting := [0]
  rhsNonContracting := [1]
  lhsBatch := []
  rhsBatch := []
  wf := dot_S1250000x128_S128x64_S1250000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Layer.lean ====
/-
  One layer of the network, as mathematics. A row of 128 features is two rows of 64 laid side by side; the layer
  multiplies it by a 64 × 128 weight matrix (output feature `o` is the sum over `k` of feature `k` times `W[o, k]`),
  adds a bias per output feature, and keeps the positive part. Over the extended reals this is one function of the
  row, so an array of rows is mapped row by row, whatever its number of rows and however it is cut into blocks.
-/
import Idealize.ShloMosaic.PureOps.Ideal
import Idealize.ShloMosaic.Lib.ValueIdx
import Idealize.ShloMosaic.Lib.Pipeline.Value

noncomputable section

namespace Cert.Layer

open Idealize.ShloMosaic Idealize.ShloMosaic.ValueIdx

/-- Two rows of 64 side by side: feature `k` of the joined row is feature `k` of the first row below 64 and
    feature `k - 64` of the second from 64 on. -/
def catRow (a b : Fin 64 → EReal) (k : Fin 128) : EReal :=
  if h : k.val < 64 then a ⟨k.val, h⟩ else b ⟨k.val - 64, by have := k.isLt; omega⟩

/-- Output feature `o` of the layer on the joined row: `max (∑ₖ row k · W[o, k] + bias o) 0`. -/
def rowLayer (a b : Fin 64 → EReal) (w : (⟨2, ![64, 128]⟩ : Shape).Idx → EReal) (bias : Fin 64 → EReal)
    (o : Fin 64) : EReal :=
  max ((∑ k : Fin 128, catRow a b k * w (ix2 o k)) + bias o) 0

/-- The layer on arrays of `R` rows: entry `(r, o)` is `rowLayer` of row `r` of `A` beside row `r` of `B`. -/
def layer {R : Nat} (A B : (⟨2, ![R, 64]⟩ : Shape).Idx → EReal) (w : (⟨2, ![64, 128]⟩ : Shape).Idx → EReal)
    (bias : Fin 64 → EReal) : (⟨2, ![R, 64]⟩ : Shape).Idx → EReal :=
  fun i => rowLayer (fun k => A (ix2 (i 0) k)) (fun k => B (ix2 (i 0) k)) w bias (i 1)

theorem layer_ix2 {R : Nat} (A B : (⟨2, ![R, 64]⟩ : Shape).Idx → EReal) (w : (⟨2, ![64, 128]⟩ : Shape).Idx → EReal)
    (bias : Fin 64 → EReal) (r : Fin R) (o : Fin 64) :
    layer A B w bias (ix2 r o) = rowLayer (fun k => A (ix2 r k)) (fun k => B (ix2 r k)) w bias o := rfl

/-- Two arrays of `R` rows of 64 joined along the second axis, read at `(p, k)`: the joined row of their rows `p`. -/
theorem concat_ix2 {R : Nat} (x y : (⟨2, ![R, 64]⟩ : Shape).Idx → EReal)
    (h : Shape.Concatenates [(⟨2, ![R, 64]⟩ : Shape), ⟨2, ![R, 64]⟩] ⟨2, ![R, 128]⟩ 1) (p : Fin R) (k : Fin 128) :
    concatenate (⟨2, ![R, 128]⟩ : Shape) 1 [⟨⟨2, ![R, 64]⟩, x⟩, ⟨⟨2, ![R, 64]⟩, y⟩] h (ix2 p k)
      = catRow (fun k' => x (ix2 p k')) (fun k' => y (ix2 p k')) k := by
  unfold catRow
  split
  · next hk =>
    exact concatenate_pair_apply_left 1 x y h (ix2 p k) rfl (ix2 p ⟨k.val, hk⟩)
      (fun b => by match b with | ⟨0, _⟩ => rfl | ⟨1, _⟩ => rfl)
  · next hk =>
    exact concatenate_pair_apply_right 1 x y h (ix2 p k) rfl rfl
      (ix2 p ⟨k.val - 64, by have := k.isLt; omega⟩)
      (fun b hb => by match b with | ⟨0, _⟩ => rfl | ⟨1, _⟩ => exact absurd rfl hb)
      (by show (k.val - 64) + 64 = k.val; omega)

end Cert.Layer

end
-- ==== Proof.Payload.lean ====
/-
  What one grid point of either kernel stores, read at an entry. The body joins its two input blocks side by side
  (10000 rows of 128 features), multiplies by the 64 × 128 weight block contracting the feature axis of both,
  adds the bias row and keeps the positive part. Over the extended reals the changes of float format are the
  identity and the product into a zero accumulator is the plain sum, so entry `(p, q)` of the stored block is
  `rowLayer` of row `p` of the first block beside row `p` of the second, at output feature `q`.
-/
import proofs.«425765_j5128190951731_3_alg».proof.Proof.Gen.KernelIdeal.Skeleton
import proofs.«425765_j5128190951731_3_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Layer
open Facts₀ Facts

/-! ## The block product's operand indices, axis by axis -/

theorem lhs_blk_0 (i : S10000x64.Idx) (q : dot_S10000x128_S64x128_S10000x64_1_1_0_0_n_n.contr.Idx) :
    (dot_S10000x128_S64x128_S10000x64_1_1_0_0_n_n.lhsIdx i q 0).val = (i 0).val := by
  unfold DotDims.lhsIdx
  rw [dif_neg (show ¬(0 : Fin S10000x128.rank) ∈ dot_S10000x128_S64x128_S10000x64_1_1_0_0_n_n.lhsBatch by decide), dif_pos (show (0 : Fin S10000x128.rank) ∈ dot_S10000x128_S64x128_S10000x64_1_1_0_0_n_n.lhsNonContracting by decide)]
  rfl
theorem lhs_blk_1 (i : S10000x64.Idx) (q : dot_S10000x128_S64x128_S10000x64_1_1_0_0_n_n.contr.Idx) :
    (dot_S10000x128_S64x128_S10000x64_1_1_0_0_n_n.lhsIdx i q 1).val = (q ⟨0, by decide⟩).val :=
  dot_S10000x128_S64x128_S10000x64_1_1_0_0_n_n.lhsIdx_val_of_single rfl i q
theorem rhs_blk_0 (i : S10000x64.Idx) (q : dot_S10000x128_S64x128_S10000x64_1_1_0_0_n_n.contr.Idx) :
    (dot_S10000x128_S64x128_S10000x64_1_1_0_0_n_n.rhsIdx i q 0).val = (i 1).val := by
  unfold DotDims.rhsIdx
  rw [dif_neg (show ¬(0 : Fin S64x128.rank) ∈ dot_S10000x128_S64x128_S10000x64_1_1_0_0_n_n.rhsBatch by decide), dif_pos (show (0 : Fin S64x128.rank) ∈ dot_S10000x128_S64x128_S10000x64_1_1_0_0_n_n.rhsNonContracting by decide)]
  rfl
theorem rhs_blk_1 (i : S10000x64.Idx) (q : dot_S10000x128_S64x128_S10000x64_1_1_0_0_n_n.contr.Idx) :
    (dot_S10000x128_S64x128_S10000x64_1_1_0_0_n_n.rhsIdx i q 1).val = (q ⟨0, by decide⟩).val :=
  dot_S10000x128_S64x128_S10000x64_1_1_0_0_n_n.rhsIdx_val_of_single rfl i q

/-- The block product into the zero accumulator at entry `(p, q)`: the sum over the shared feature axis of row `p`
    of the left block times row `q` of the weight block. -/
theorem blockProduct_apply (l : FVec Ideal S10000x128 .bf16) (r : FVec Ideal S64x128 .bf16) (p : Fin 10000) (q : Fin 64) :
    matmul dot_S10000x128_S64x128_S10000x64_1_1_0_0_n_n none l r (constant S10000x64 .f32 0x00000000#32) (ix2 p q)
      = ∑ k : Fin 128, l (ix2 p k) * r (ix2 q k) := by
  refine (Ideal.matmul_constant_zero_apply dot_S10000x128_S64x128_S10000x64_1_1_0_0_n_n none l r (ix2 p q)).trans ?_
  rw [← Equiv.sum_comp (ValueIdx.contrEquiv1 dot_S10000x128_S64x128_S10000x64_1_1_0_0_n_n 128 rfl rfl).symm]
  refine Finset.sum_congr rfl fun k _ => ?_
  have hk := ValueIdx.contrEquiv1_symm_val dot_S10000x128_S64x128_S10000x64_1_1_0_0_n_n 128 rfl rfl k
  have el : dot_S10000x128_S64x128_S10000x64_1_1_0_0_n_n.lhsIdx (ix2 p q) ((ValueIdx.contrEquiv1 dot_S10000x128_S64x128_S10000x64_1_1_0_0_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S64x128_S10000x64_1_1_0_0_n_n.rhsIdx (ix2 p q) ((ValueIdx.contrEquiv1 dot_S10000x128_S64x128_S10000x64_1_1_0_0_n_n 128 rfl rfl).symm k) = ix2 q k := funext fun a => Fin.ext (by
    match a with
    | ⟨0, _⟩ => exact rhs_blk_0 _ _
    | ⟨1, _⟩ => exact (rhs_blk_1 _ _).trans hk)
  rw [el, er]

/-! ## The two payloads -/

/-- The first kernel's stored block at `(p, q)` (its first input block already in the narrow format). -/
theorem edgePayload_apply (x0 : Vec Ideal S10000x64 .bf16) (x1 : Vec Ideal S10000x64 .f32) (x2 : Vec Ideal S64x128 .f32)
    (x3 : Vec Ideal S1x64 .f32) (p : Fin 10000) (q : Fin 64) :
    k0_pay1 (F := Ideal) x0 x1 x2 x3 (ix2 p q)
      = rowLayer (fun k => x0 (ix2 p k)) (fun k => x1 (ix2 p k)) x2 (fun o => x3 (ix2 (0 : Fin 1) o)) q := by
  unfold k0_pay1 rowLayer
  dsimp only
  rw [maximumf_apply, addf_apply, broadcast_apply, blockProduct_apply, broadcastTo_1b_ab_apply, shapeCast_self, shapeCast_self]
  have hz : Scalar.ofBits (F := Ideal) .f32 0x00000000#32 = (0 : EReal) := Ideal.ofBits_zero_f32
  rw [hz]
  refine congrArg (fun s => max (s + x3 (ix2 (0 : Fin 1) q)) 0) (Finset.sum_congr rfl fun k _ => ?_)
  rw [concat_ix2]
  rfl

/-- The second kernel's stored block at `(p, q)` (both input blocks narrowed in the body). -/
theorem nodePayload_apply (x0 : Vec Ideal S10000x64 .f32) (x1 : Vec Ideal S10000x64 .f32) (x2 : Vec Ideal S64x128 .f32)
    (x3 : Vec Ideal S1x64 .f32) (p : Fin 10000) (q : Fin 64) :
    k1_pay1 (F := Ideal) x0 x1 x2 x3 (ix2 p q)
      = rowLayer (fun k => x0 (ix2 p k)) (fun k => x1 (ix2 p k)) x2 (fun o => x3 (ix2 (0 : Fin 1) o)) q := by
  unfold k1_pay1 rowLayer
  dsimp only
  rw [maximumf_apply, addf_apply, broadcast_apply, blockProduct_apply, broadcastTo_1b_ab_apply, shapeCast_self, shapeCast_self]
  have hz : Scalar.ofBits (F := Ideal) .f32 0x00000000#32 = (0 : EReal) := Ideal.ofBits_zero_f32
  rw [hz]
  refine congrArg (fun s => max (s + x3 (ix2 (0 : Fin 1) q)) 0) (Finset.sum_congr rfl fun k _ => ?_)
  rw [concat_ix2]
  rfl

end Cert.KernelIdeal.Payload

end
-- ==== Proof.EdgeRegion.lean ====
/-
  A region whose grid walks 125 blocks of 10000 rows (1250000 rows in all): the array it leaves is the layer, row by
  row, of the arrays it finds. Point `t` reads rows `10000 t … 10000 t + 9999` of the two row arrays and the whole
  weight and bias arrays, and writes back the same rows of the result; the blocks tile the result, so every row is
  written by the point numbered by its ten-thousands.
-/
import proofs.«425765_j5128190951731_3_alg».proof.Proof.Gen.KernelIdeal.Frame
import proofs.«425765_j5128190951731_3_alg».proof.Proof.Payload

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.ValueIdx Idealize.ShloMosaic.Pipeline Cert.Layer
open Facts₀ Facts

variable (V : (c : Dev nD) → (b : Ref sig .tc) → Buf (Elt Ideal) ((c : Thread nD τ).loc b))

theorem hz : (![0, 0] : Fin 2 → Nat) = fun _ => 0 := funext fun a => by fin_cases a <;> rfl

/-- The array the region leaves, as one function of the arrays it finds: the layer, row by row. -/
abbrev G (c : Dev nD) : S1250000x64.Idx → EReal :=
  layer (R := 1250000) (V c main_v11) (V c main_arg1) (V c main_arg3) (fun o => V c main_v12 (ix2 (0 : Fin 1) o))

/-- One entry of one point's block against the layer on whole arrays: if row `p` of each input block is row `r` of
    its array, the weight and bias blocks are the whole arrays, then entry `(p, q)` of the stored block is entry
    `(r, q)` of the layer. -/
theorem entry_eq (A : S1250000x64.Idx → EReal) (B : S1250000x64.Idx → EReal) (W : S64x128.Idx → EReal) (b2 : S1x64.Idx → EReal)
    (x0 x1 : S10000x64.Idx → EReal) (x2 : S64x128.Idx → EReal) (x3 : S1x64.Idx → EReal)
    (p : Fin 10000) (q : Fin 64) (r : Fin 1250000)
    (h0 : ∀ k : Fin 64, x0 (ix2 p k) = A (ix2 r k)) (h1 : ∀ k : Fin 64, x1 (ix2 p k) = B (ix2 r k))
    (h2 : x2 = W) (h3 : ∀ o : Fin 64, x3 (ix2 (0 : Fin 1) o) = b2 (ix2 (0 : Fin 1) o)) :
    k0_pay1 (F := Ideal) x0 x1 x2 x3 (ix2 p q) = layer (R := 1250000) A B W (fun o => b2 (ix2 (0 : Fin 1) o)) (ix2 r q) := by
  rw [Payload.edgePayload_apply, layer_ix2]
  subst h2
  simp only [h0, h1, h3]

/-- The printed index maps, decided over the grid: the row blocks move with the point, everything else stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer of the arrays as the region finds them. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero hz]
  simp only [View.ld_unit_zero (S := S10000x64) hz, View.ld_unit_zero (S := S64x128) hz, View.ld_unit_zero (S := S1x64) hz]
  obtain ⟨e00, e01, e10, e11, e20, e21, e30, e31, e40, e41⟩ := idx_facts t
  have ht : t.val < 125 := by have h := t.isLt; have hN : cfg0.N = 125 := N_0; omega
  funext j
  obtain ⟨p, q, rfl⟩ : ∃ (p : Fin 10000) (q : Fin 64), j = ix2 p q := ⟨j 0, j 1, eq_ix2 j⟩
  have hr : t.val * 10000 + p.val < 1250000 := by have := p.isLt; omega
  have he4 : ((cfg0.win 4).blk t).view.emb (ix2 p q) = ix2 (⟨t.val * 10000 + p.val, hr⟩ : Fin 1250000) q := by
    funext a; apply Fin.ext
    match a with
    | ⟨0, _⟩ => show win0_4.index t (0 : Fin 2) * 10000 + 1 * p.val = t.val * 10000 + p.val; omega
    | ⟨1, _⟩ => show win0_4.index t (1 : Fin 2) * 64 + 1 * q.val = q.val; omega
  have he0 : ∀ k : Fin 64, ((cfg0.win 0).blk t).view.emb (ix2 p k) = ix2 (⟨t.val * 10000 + p.val, hr⟩ : Fin 1250000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have he1 : ∀ k : Fin 64, ((cfg0.win 1).blk t).view.emb (ix2 p k) = ix2 (⟨t.val * 10000 + p.val, hr⟩ : Fin 1250000) k := fun k => by
    funext a; apply Fin.ext
    match a with
    | ⟨0, _⟩ => show win0_1.index t (0 : Fin 2) * 10000 + 1 * p.val = t.val * 10000 + p.val; omega
    | ⟨1, _⟩ => show win0_1.index t (1 : Fin 2) * 64 + 1 * k.val = k.val; omega
  have he2 : ∀ y : S64x128.Idx, ((cfg0.win 2).blk t).view.emb y = y := fun y => by
    funext a; apply Fin.ext
    match a with
    | ⟨0, _⟩ => show win0_2.index t (0 : Fin 2) * 64 + 1 * (y 0).val = (y 0).val; omega
    | ⟨1, _⟩ => show win0_2.index t (1 : Fin 2) * 128 + 1 * (y 1).val = (y 1).val; omega
  have he3 : ∀ y : S1x64.Idx, ((cfg0.win 3).blk t).view.emb y = y := fun y => by
    funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  show k0_pay1 (F := Ideal) (iblk0 V c 0 t) (iblk0 V c 1 t) (iblk0 V c 2 t) (iblk0 V c 3 t) (ix2 p q)
    = G V c (((cfg0.win 4).blk t).view.emb (ix2 p q))
  rw [he4]
  refine entry_eq (V c main_v11) (V c main_arg1) (V c main_arg3) (V c main_v12) (iblk0 V c 0 t) (iblk0 V c 1 t) (iblk0 V c 2 t) (iblk0 V c 3 t)
    p q ⟨t.val * 10000 + p.val, hr⟩ ?_ ?_ ?_ ?_
  · intro k
    show V c main_v11 (((cfg0.win 0).blk t).view.emb (ix2 p k)) = _
    rw [he0]
  · intro k
    show V c main_arg1 (((cfg0.win 1).blk t).view.emb (ix2 p k)) = _
    rw [he1]
  · funext y
    show V c main_arg3 (((cfg0.win 2).blk t).view.emb y) = _
    rw [he2]
  · intro o
    show V c main_v12 (((cfg0.win 3).blk t).view.emb (ix2 (0 : Fin 1) o)) = _
    rw [he3]

/-- An index of the array is in point `t`'s block iff each coordinate is in the block's range on its axis. -/
theorem mem_blk (t : Fin cfg0.N) (i : S1250000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v13).slice (win0_4.rect t)).set ↔ _
  rw [View.set_slice_whole, Rect.mem_set_unit]
  exact Iff.rfl

/-- Every row of the array lies in the block of the point numbered by its ten-thousands. -/
theorem cover (i : S1250000x64.Idx) : ∃ t : Fin cfg0.N, (cfg0.win 4).flush t = true ∧ i ∈ ((cfg0.win 4).blk t).view.set := by
  have hi0 : (i 0).val < 1250000 := (i 0).isLt
  have hi1 : (i 1).val < 64 := (i 1).isLt
  have hN : cfg0.N = 125 := N_0
  refine ⟨⟨(i 0).val / 10000, by rw [hN]; omega⟩, flush0_4 _, ?_⟩
  rw [mem_blk]
  obtain ⟨e00, e01, e10, e11, e20, e21, e30, e31, e40, e41⟩ := idx_facts ⟨(i 0).val / 10000, by rw [hN]; omega⟩
  intro a
  match a with
  | ⟨0, _⟩ =>
    show win0_4.index _ (0 : Fin 2) * 10000 ≤ (i 0).val ∧ (i 0).val < win0_4.index _ (0 : Fin 2) * 10000 + 10000
    rw [e40]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e41]; omega

/-- THE ARRAY after the region: the layer of the arrays the region found. -/
theorem final (c : Dev nD) : (dat0 (F := Ideal) V c).arrAt 4 cfg0.N = G V c :=
  (dat0 (F := Ideal) V c).arrAt_eq_of_cover 4 (G V c) (fun t _ => flushed_eq V c t) (cover)

end Cert.KernelIdeal.EdgeRegion

end
-- ==== Proof.NodeRegion.lean ====
/-
  A region whose grid walks 5 blocks of 10000 rows (50000 rows in all): the array it leaves is the layer, row by
  row, of the arrays it finds. Point `t` reads rows `10000 t … 10000 t + 9999` of the two row arrays and the whole
  weight and bias arrays, and writes back the same rows of the result; the blocks tile the result, so every row is
  written by the point numbered by its ten-thousands.
-/
import proofs.«425765_j5128190951731_3_alg».proof.Proof.Gen.KernelIdeal.Frame
import proofs.«425765_j5128190951731_3_alg».proof.Proof.Payload

set_option maxRecDepth 16384

noncomputable section

namespace Cert.KernelIdeal.NodeRegion

open Cert.KernelIdeal Cert.KernelIdeal.Gen Idealize.ShloMosaic Idealize.ShloMosaic.TcCoe Idealize.SL.Sem
open Idealize.ShloMosaic.ValueIdx Idealize.ShloMosaic.Pipeline Cert.Layer
open Facts₀ Facts

variable (V : (c : Dev nD) → (b : Ref sig .tc) → Buf (Elt Ideal) ((c : Thread nD τ).loc b))

theorem hz : (![0, 0] : Fin 2 → Nat) = fun _ => 0 := funext fun a => by fin_cases a <;> rfl

/-- The array the region leaves, as one function of the arrays it finds: the layer, row by row. -/
abbrev G (c : Dev nD) : S50000x64.Idx → EReal :=
  layer (R := 50000) (V c main_arg0) (V c main_v16) (V c main_arg5) (fun o => V c main_v17 (ix2 (0 : Fin 1) o))

/-- One entry of one point's block against the layer on whole arrays: if row `p` of each input block is row `r` of
    its array, the weight and bias blocks are the whole arrays, then entry `(p, q)` of the stored block is entry
    `(r, q)` of the layer. -/
theorem entry_eq (A : S50000x64.Idx → EReal) (B : S50000x64.Idx → EReal) (W : S64x128.Idx → EReal) (b2 : S1x64.Idx → EReal)
    (x0 x1 : S10000x64.Idx → EReal) (x2 : S64x128.Idx → EReal) (x3 : S1x64.Idx → EReal)
    (p : Fin 10000) (q : Fin 64) (r : Fin 50000)
    (h0 : ∀ k : Fin 64, x0 (ix2 p k) = A (ix2 r k)) (h1 : ∀ k : Fin 64, x1 (ix2 p k) = B (ix2 r k))
    (h2 : x2 = W) (h3 : ∀ o : Fin 64, x3 (ix2 (0 : Fin 1) o) = b2 (ix2 (0 : Fin 1) o)) :
    k1_pay1 (F := Ideal) x0 x1 x2 x3 (ix2 p q) = layer (R := 50000) A B W (fun o => b2 (ix2 (0 : Fin 1) o)) (ix2 r q) := by
  rw [Payload.nodePayload_apply, layer_ix2]
  subst h2
  simp only [h0, h1, h3]

/-- The printed index maps, decided over the grid: the row blocks move with the point, everything else stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the layer of the arrays as the region finds them. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S10000x64) hz, View.ld_unit_zero (S := S64x128) hz, View.ld_unit_zero (S := S1x64) hz]
  obtain ⟨e00, e01, e10, e11, e20, e21, e30, e31, e40, e41⟩ := idx_facts t
  have ht : t.val < 5 := by have h := t.isLt; have hN : cfg1.N = 5 := N_1; omega
  funext j
  obtain ⟨p, q, rfl⟩ : ∃ (p : Fin 10000) (q : Fin 64), j = ix2 p q := ⟨j 0, j 1, eq_ix2 j⟩
  have hr : t.val * 10000 + p.val < 50000 := by have := p.isLt; omega
  have he4 : ((cfg1.win 4).blk t).view.emb (ix2 p q) = ix2 (⟨t.val * 10000 + p.val, hr⟩ : Fin 50000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  have he0 : ∀ k : Fin 64, ((cfg1.win 0).blk t).view.emb (ix2 p k) = ix2 (⟨t.val * 10000 + p.val, hr⟩ : Fin 50000) k := fun k => by
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have he1 : ∀ k : Fin 64, ((cfg1.win 1).blk t).view.emb (ix2 p k) = ix2 (⟨t.val * 10000 + p.val, hr⟩ : Fin 50000) k := fun k => by
    funext a; apply Fin.ext
    match a with
    | ⟨0, _⟩ => show win1_1.index t (0 : Fin 2) * 10000 + 1 * p.val = t.val * 10000 + p.val; omega
    | ⟨1, _⟩ => show win1_1.index t (1 : Fin 2) * 64 + 1 * k.val = k.val; omega
  have he2 : ∀ y : S64x128.Idx, ((cfg1.win 2).blk t).view.emb y = y := fun y => by
    funext a; apply Fin.ext
    match a with
    | ⟨0, _⟩ => show win1_2.index t (0 : Fin 2) * 64 + 1 * (y 0).val = (y 0).val; omega
    | ⟨1, _⟩ => show win1_2.index t (1 : Fin 2) * 128 + 1 * (y 1).val = (y 1).val; omega
  have he3 : ∀ y : S1x64.Idx, ((cfg1.win 3).blk t).view.emb y = y := fun y => by
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  show k1_pay1 (F := Ideal) (iblk1 V c 0 t) (iblk1 V c 1 t) (iblk1 V c 2 t) (iblk1 V c 3 t) (ix2 p q)
    = G V c (((cfg1.win 4).blk t).view.emb (ix2 p q))
  rw [he4]
  refine entry_eq (V c main_arg0) (V c main_v16) (V c main_arg5) (V c main_v17) (iblk1 V c 0 t) (iblk1 V c 1 t) (iblk1 V c 2 t) (iblk1 V c 3 t)
    p q ⟨t.val * 10000 + p.val, hr⟩ ?_ ?_ ?_ ?_
  · intro k
    show V c main_arg0 (((cfg1.win 0).blk t).view.emb (ix2 p k)) = _
    rw [he0]
  · intro k
    show V c main_v16 (((cfg1.win 1).blk t).view.emb (ix2 p k)) = _
    rw [he1]
  · funext y
    show V c main_arg5 (((cfg1.win 2).blk t).view.emb y) = _
    rw [he2]
  · intro o
    show V c main_v17 (((cfg1.win 3).blk t).view.emb (ix2 (0 : Fin 1) o)) = _
    rw [he3]

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v18).slice (win1_4.rect t)).set ↔ _
  rw [View.set_slice_whole, Rect.mem_set_unit]
  exact Iff.rfl

/-- Every row of the array lies in the block of the point numbered by its ten-thousands. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  refine ⟨⟨(i 0).val / 10000, by rw [hN]; omega⟩, flush1_4 _, ?_⟩
  rw [mem_blk]
  obtain ⟨e00, e01, e10, e11, e20, e21, e30, e31, e40, e41⟩ := idx_facts ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e40]; show (i 0).val / 10000 * 10000 ≤ (i 0).val ∧ (i 0).val < (i 0).val / 10000 * 10000 + 10000; omega
  | ⟨1, _⟩ =>
    show win1_4.index _ (1 : Fin 2) * 64 ≤ (i 1).val ∧ (i 1).val < win1_4.index _ (1 : Fin 2) * 64 + 64
    rw [e41]; omega

/-- THE ARRAY after the region: the layer of the arrays the region found. -/
theorem final (c : Dev nD) : (dat1 (F := Ideal) V c).arrAt 4 cfg1.N = G V c :=
  (dat1 (F := Ideal) V c).arrAt_eq_of_cover 4 (G V c) (fun t _ => flushed_eq V c t) (cover)

end Cert.KernelIdeal.NodeRegion

end
-- ==== Proof.Boundaries.lean ====
/-
  What the buffers hold where each region is entered, as terms of the launch memory. Before the first region the
  host has cut the two index rows out of the index array, narrowed the node features (the identity over the
  extended reals), turned negative source indices by adding the number of nodes, gathered the source rows, and
  laid the first bias out as one row. Between the regions it sums the first region's rows into their destination
  nodes (a scatter-add into zeros) and lays the second bias out as one row. No host operation and no region
  writes an argument.
-/
import proofs.«425765_j5128190951731_3_alg».proof.Proof.Gen.KernelIdeal.Frame
import Idealize.ShloMosaic.Lib.StableHlo.Run
import Idealize.ShloMosaic.PureOps.Ideal

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- Row `0` of the index array: the source node of each edge. -/
def srcRow (ids : (⟨S2x1250000, .i32⟩ : BufTy).Contents (Elt Ideal)) : (⟨S1250000, .i32⟩ : BufTy).Contents (Elt Ideal) :=
  shapeCast _ (extractStridedSlice S1x1250000 ![0, 0] ids slices_S2x1250000_S1x1250000_0_0) shapeCasts_S1x1250000_S1250000

/-- Row `1` of the index array: the destination node of each edge. -/
def dstRow (ids : (⟨S2x1250000, .i32⟩ : BufTy).Contents (Elt Ideal)) : (⟨S1250000, .i32⟩ : BufTy).Contents (Elt Ideal) :=
  shapeCast _ (extractStridedSlice S1x1250000 ![1, 0] ids slices_S2x1250000_S1x1250000_1_0) shapeCasts_S1x1250000_S1250000

/-- The source indices as the gather takes them: a negative index counted from the end (the number of nodes
    added), each as a column of one. -/
def srcCol (ids : (⟨S2x1250000, .i32⟩ : BufTy).Contents (Elt Ideal)) : (⟨S1250000x1, .i32⟩ : BufTy).Contents (Elt Ideal) :=
  broadcastInDim S1250000x1 ![0] bcast_S1250000_S1250000x1_0
    (select (cmpi .slt (srcRow ids) (broadcastInDim S1250000 ![] bcast_S_S1250000 (constantI S_ 32 0#32)))
      (addi (srcRow ids) (broadcastInDim S1250000 ![] bcast_S_S1250000 (constantI S_ 32 50000#32))) (srcRow ids))

/-- The destination indices as the scatter takes them: a column of one. -/
def dstCol (ids : (⟨S2x1250000, .i32⟩ : BufTy).Contents (Elt Ideal)) : (⟨S1250000x1, .i32⟩ : BufTy).Contents (Elt Ideal) :=
  broadcastInDim S1250000x1 ![0] bcast_S1250000_S1250000x1_0 (dstRow ids)

/-! ## At the first region's entry -/

theorem entry0_gathered (c : Dev nD) :
    V1 m ρ c main_v11 = (Host.gather gather_S50000x64_S1250000x1_S1250000x64_1_0_n_n_0_1_164
      (truncf (F := Ideal) .bf16 (m ((c : Thread nD τ).loc main_arg0)) bitsLt_bf16_f32) (srcCol (m ((c : Thread nD τ).loc main_arg2)))
        : (⟨S1250000x64, .bf16⟩ : BufTy).Contents (Elt Ideal)) := by
  show StableHlo.after hostOps0 (W0 m ρ c) (Proc.devRef .tc main_v11) = _
  after_results
  rfl

theorem entry0_edges (c : Dev nD) : V1 m ρ c main_arg1 = m ((c : Thread nD τ).loc main_arg1) := by
  show StableHlo.after hostOps0 (W0 m ρ c) (Proc.devRef .tc main_arg1) = _
  after_results

theorem entry0_weights (c : Dev nD) : V1 m ρ c main_arg3 = m ((c : Thread nD τ).loc main_arg3) := by
  show StableHlo.after hostOps0 (W0 m ρ c) (Proc.devRef .tc main_arg3) = _
  after_results

theorem entry0_bias (c : Dev nD) :
    V1 m ρ c main_v12 = shapeCast _ (m ((c : Thread nD τ).loc main_arg4)) shapeCasts_S64_S1x64 := by
  show StableHlo.after hostOps0 (W0 m ρ c) (Proc.devRef .tc main_v12) = _
  after_results
  rfl

/-! ## Across the first region -/

theorem across0_dst (c : Dev nD) : W2 m ρ c (Proc.devRef .tc main_v3) = dstRow (m ((c : Thread nD τ).loc main_arg2)) := by
  rw [W2_of_ne m ρ c main_v3 (by decide)]
  show StableHlo.after hostOps0 (W0 m ρ c) (Proc.devRef .tc main_v3) = _
  after_results
  rfl

theorem across0_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) := by
  rw [W2_of_ne m ρ c b hb]
  exact h0

/-! ## At the second region's entry -/

theorem entry1_nodes (c : Dev nD) : V3 m ρ c main_arg0 = m ((c : Thread nD τ).loc main_arg0) := by
  show StableHlo.after hostOps1 (W2 m ρ c) (Proc.devRef .tc main_arg0) = _
  after_results
  refine across0_arg m ρ c main_arg0 (by decide) ?_
  after_results

theorem entry1_weights (c : Dev nD) : V3 m ρ c main_arg5 = m ((c : Thread nD τ).loc main_arg5) := by
  show StableHlo.after hostOps1 (W2 m ρ c) (Proc.devRef .tc main_arg5) = _
  after_results
  refine across0_arg m ρ c main_arg5 (by decide) ?_
  after_results

theorem entry1_bias (c : Dev nD) :
    V3 m ρ c main_v17 = shapeCast _ (m ((c : Thread nD τ).loc main_arg6)) shapeCasts_S64_S1x64 := by
  show StableHlo.after hostOps1 (W2 m ρ c) (Proc.devRef .tc main_v17) = _
  after_results
  rw [across0_arg m ρ c main_arg6 (by decide) (by after_results)]
  rfl

theorem entry1_summed (c : Dev nD) :
    V3 m ρ c main_v16 = Host.scatterAdd scatter_S50000x64_S1250000x1_S1250000x64_1_0_0_1
      (broadcastInDim S50000x64 ![] bcast_S_S50000x64 (constant (F := Ideal) S_ .f32 0x00000000#32))
      (dstCol (m ((c : Thread nD τ).loc main_arg2))) ((dat0 (V1 m ρ) c).arrAt 4 cfg0.N) := by
  show StableHlo.after hostOps1 (W2 m ρ c) (Proc.devRef .tc main_v16) = _
  after_results
  rw [across0_dst m ρ c, W2_arr m ρ c 4]
  rfl

end Cert.KernelIdeal.Boundaries

end
-- ==== Proof.KernelValue.lean ====
/-
  The kernel program's result as one function of its arguments. The last boundary of the run holds, at the result
  array, what the second region leaves: the layer of the node features beside the summed messages, with the second
  weights and bias. The summed messages are the scatter-add, into zeros and by destination node, of what the first
  region leaves: the layer of the gathered source rows beside the edge features, with the first weights and bias.
  A bias laid out as one row of 64, read at `(0, o)`, is the bias at `o`.
-/
import proofs.«425765_j5128190951731_3_alg».proof.Proof.Launched
import proofs.«425765_j5128190951731_3_alg».proof.Proof.EdgeRegion
import proofs.«425765_j5128190951731_3_alg».proof.Proof.NodeRegion
import proofs.«425765_j5128190951731_3_alg».proof.Proof.Boundaries

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Layer Cert.KernelIdeal.Boundaries

/-- A vector of 64 laid out as one row, read at `(0, o)`. -/
theorem biasRow (x : (⟨S64, .f32⟩ : BufTy).Contents (Elt Ideal)) (o : Fin 64) :
    shapeCast S1x64 x shapeCasts_S64_S1x64 (ix2 (0 : Fin 1) o) = x (ix1 o) :=
  shapeCast_apply x shapeCasts_S64_S1x64 (ix2 (0 : Fin 1) o) (ix1 o)
    (by rw [Shape.rowMajor_val_one, Shape.rowMajor_val_two]; show o.val = 0 * 64 + o.val; omega)

/-- The messages: the layer of the gathered source rows beside the edge features. -/
def messages (H : (⟨S50000x64, .f32⟩ : BufTy).Contents (Elt Ideal)) (Xe : (⟨S1250000x64, .f32⟩ : BufTy).Contents (Elt Ideal))
    (ids : (⟨S2x1250000, .i32⟩ : BufTy).Contents (Elt Ideal)) (MW : (⟨S64x128, .f32⟩ : BufTy).Contents (Elt Ideal))
    (Mb : (⟨S64, .f32⟩ : BufTy).Contents (Elt Ideal)) : S1250000x64.Idx → EReal :=
  layer (R := 1250000)
    (Host.gather gather_S50000x64_S1250000x1_S1250000x64_1_0_n_n_0_1_164 (truncf (F := Ideal) .bf16 H bitsLt_bf16_f32) (srcCol ids) : (⟨S1250000x64, .bf16⟩ : BufTy).Contents (Elt Ideal))
    Xe MW (fun o => Mb (ix1 o))

/-- The result: the layer of the node features beside the messages summed by destination node. -/
def result (H : (⟨S50000x64, .f32⟩ : BufTy).Contents (Elt Ideal)) (Xe : (⟨S1250000x64, .f32⟩ : BufTy).Contents (Elt Ideal))
    (ids : (⟨S2x1250000, .i32⟩ : BufTy).Contents (Elt Ideal)) (MW : (⟨S64x128, .f32⟩ : BufTy).Contents (Elt Ideal))
    (Mb : (⟨S64, .f32⟩ : BufTy).Contents (Elt Ideal)) (UW : (⟨S64x128, .f32⟩ : BufTy).Contents (Elt Ideal))
    (Ub : (⟨S64, .f32⟩ : BufTy).Contents (Elt Ideal)) : S50000x64.Idx → EReal :=
  layer (R := 50000) H
    (Host.scatterAdd scatter_S50000x64_S1250000x1_S1250000x64_1_0_0_1
      (broadcastInDim S50000x64 ![] bcast_S_S50000x64 (constant (F := Ideal) S_ .f32 0x00000000#32))
      (dstCol ids) (messages H Xe ids MW Mb) : (⟨S50000x64, .f32⟩ : BufTy).Contents (Elt Ideal))
    UW (fun o => Ub (ix1 o))

variable (m : (ℓ : Loc nD τ sig) → Buf (Elt Ideal) ℓ) (ρ : Dev nD → PrngReg)

/-- What the first region leaves. -/
theorem edgeArray (c : Dev nD) :
    (dat0 (F := Ideal) (V1 m ρ) c).arrAt 4 cfg0.N
      = messages (m ((c : Thread nD τ).loc main_arg0)) (m ((c : Thread nD τ).loc main_arg1)) (m ((c : Thread nD τ).loc main_arg2))
          (m ((c : Thread nD τ).loc main_arg3)) (m ((c : Thread nD τ).loc main_arg4)) := by
  rw [EdgeRegion.final (V1 m ρ) c]
  show layer (R := 1250000) (V1 m ρ c main_v11) (V1 m ρ c main_arg1) (V1 m ρ c main_arg3) (fun o => V1 m ρ c main_v12 (ix2 (0 : Fin 1) o)) = _
  rw [entry0_gathered m ρ c, entry0_edges m ρ c, entry0_weights m ρ c, entry0_bias m ρ c]
  unfold messages
  exact congrArg (layer (R := 1250000) _ _ _) (funext fun o => biasRow _ o)

/-- What the run's last boundary holds at the result array. -/
theorem lastBoundary (c : Dev nD) :
    W4 m ρ c (Proc.devRef .tc main_v18)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 4).trans ?_
  rw [NodeRegion.final (V3 m ρ) c]
  show layer (R := 50000) (V3 m ρ c main_arg0) (V3 m ρ c main_v16) (V3 m ρ c main_arg5) (fun o => V3 m ρ c main_v17 (ix2 (0 : Fin 1) o)) = _
  rw [entry1_nodes m ρ c, entry1_summed m ρ c, entry1_weights m ρ c, entry1_bias m ρ c, edgeArray m ρ c]
  unfold result
  exact congrArg (layer (R := 50000) _ _ _) (funext fun o => biasRow _ o)

/-- THE RUN, READ: every weakly fair execution ends with the result array at `result` of the arguments, the
    arguments as launched. -/
theorem run : θ_run defs (onTc (τ := τ) (main (F := Ideal))) ⟨m, fun _ => 0, ρ⟩ (fun r => ∀ c : Dev nD,
      r.2.mem ((c.tc : Thread nD τ).loc main_v18)
        = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (lastBoundary m ρ c), (h c).2⟩) (Launched.run m ρ)

end Cert.KernelIdeal.KernelValue

end
-- ==== Proof.RefValue.lean ====
/-
  The reference's two stages are the layer. The host joins the two row arrays side by side, multiplies by the
  transposed weight matrix (entry `(k, o)` of the transpose is `W[o, k]`), adds the bias laid out over all rows and
  takes the maximum with zero: at entry `(r, o)` that is `rowLayer` of row `r` of the first array beside row `r` of
  the second, at output feature `o`. The first stage does so for the gathered source rows beside the edge features,
  the second for the node features beside the rows summed into their destination nodes.
-/
import proofs.«425765_j5128190951731_3_alg».proof.Proof.Gen.ReferenceIdeal.Read
import proofs.«425765_j5128190951731_3_alg».proof.Proof.Layer

noncomputable section

namespace Cert.ReferenceIdeal.RefValue

open Cert.ReferenceIdeal Cert.ReferenceIdeal.Gen Cert.ReferenceIdeal.Read
open Idealize.ShloMosaic Idealize.ShloMosaic.ValueIdx Cert.Layer

/-! ## Where the stages' composed index maps land -/

theorem edge_lidx (r : Fin 1250000) (o : Fin 64) (k : Fin 128) : lidx_main_v11 (ix2 r o) k = ix2 r k :=
  funext fun a => Fin.ext (by match a with | ⟨0, _⟩ => rfl | ⟨1, _⟩ => rfl)
theorem edge_ridx (r : Fin 1250000) (o : Fin 64) (k : Fin 128) : idx_main_v10 (ridx_main_v11 (ix2 r o) k) = ix2 o k :=
  funext fun a => Fin.ext (by match a with | ⟨0, _⟩ => rfl | ⟨1, _⟩ => rfl)
theorem edge_bidx (r : Fin 1250000) (o : Fin 64) : idx_main_v12 (idx_main_v13 (ix2 r o)) = ix1 o :=
  funext fun a => Fin.ext (by match a with | ⟨0, _⟩ => rfl)

theorem node_lidx (r : Fin 50000) (o : Fin 64) (k : Fin 128) : lidx_main_v23 (ix2 r o) k = ix2 r k :=
  funext fun a => Fin.ext (by match a with | ⟨0, _⟩ => rfl | ⟨1, _⟩ => rfl)
theorem node_ridx (r : Fin 50000) (o : Fin 64) (k : Fin 128) : idx_main_v22 (ridx_main_v23 (ix2 r o) k) = ix2 o k :=
  funext fun a => Fin.ext (by match a with | ⟨0, _⟩ => rfl | ⟨1, _⟩ => rfl)
theorem node_bidx (r : Fin 50000) (o : Fin 64) : idx_main_v24 (idx_main_v25 (ix2 r o)) = ix1 o :=
  funext fun a => Fin.ext (by match a with | ⟨0, _⟩ => rfl)

/-! ## The message stage -/

/-- The reference's message stage (`%15`): the layer of the gathered source rows beside the edge features. -/
theorem edgeStage_eq (x0 : (⟨S50000x64, .f32⟩ : BufTy).Contents (Elt Ideal)) (x1 : (⟨S1250000x64, .f32⟩ : BufTy).Contents (Elt Ideal))
    (x2 : (⟨S2x1250000, .i32⟩ : BufTy).Contents (Elt Ideal)) (x3 : (⟨S64x128, .f32⟩ : BufTy).Contents (Elt Ideal))
    (x4 : (⟨S64, .f32⟩ : BufTy).Contents (Elt Ideal)) :
    val_main_v15 (F := Ideal) x0 x1 x2 x3 x4
      = layer (R := 1250000) (val_main_v8 (F := Ideal) x0 x2) x1 x3 (fun o => x4 (ix1 o)) := by
  funext i
  obtain ⟨r, o, rfl⟩ : ∃ (r : Fin 1250000) (o : Fin 64), i = ix2 r o := ⟨i 0, i 1, eq_ix2 i⟩
  rw [layer_ix2, val_main_v15_apply, val_main_v14_apply, val_main_v11_apply, val_main_v13_apply, val_main_v12_apply,
    val_main_call0_v0_apply, val_main_call0_cst_apply]
  unfold rowLayer
  have hc : ∀ k : Fin 128, val_main_v9 (F := Ideal) x0 x1 x2 (ix2 r k)
      = catRow (fun k' => val_main_v8 (F := Ideal) x0 x2 (ix2 r k')) (fun k' => x1 (ix2 r k')) k := fun k => by
    unfold val_main_v9; exact concat_ix2 _ _ _ r k
  simp only [val_main_v10_apply, edge_lidx, edge_ridx, edge_bidx, hc]
  show max (_ + _) (Ideal.ofBits .f32 0x00000000#32) = _
  rw [Ideal.ofBits_zero_f32]

/-! ## The update stage -/

/-- The reference's update stage (`%27`, its result): the layer of the node features beside the summed messages. -/
theorem nodeStage_eq (x0 : (⟨S50000x64, .f32⟩ : BufTy).Contents (Elt Ideal)) (x1 : (⟨S1250000x64, .f32⟩ : BufTy).Contents (Elt Ideal))
    (x2 : (⟨S2x1250000, .i32⟩ : BufTy).Contents (Elt Ideal)) (x3 : (⟨S64x128, .f32⟩ : BufTy).Contents (Elt Ideal))
    (x4 : (⟨S64, .f32⟩ : BufTy).Contents (Elt Ideal)) (x5 : (⟨S64x128, .f32⟩ : BufTy).Contents (Elt Ideal))
    (x6 : (⟨S64, .f32⟩ : BufTy).Contents (Elt Ideal)) :
    val_main_v27 (F := Ideal) x0 x1 x2 x3 x4 x5 x6
      = layer (R := 50000) x0 (val_main_v20 (F := Ideal) x0 x1 x2 x3 x4) x5 (fun o => x6 (ix1 o)) := by
  funext i
  obtain ⟨r, o, rfl⟩ : ∃ (r : Fin 50000) (o : Fin 64), i = ix2 r o := ⟨i 0, i 1, eq_ix2 i⟩
  rw [layer_ix2, val_main_v27_apply, val_main_v26_apply, val_main_v23_apply, val_main_v25_apply, val_main_v24_apply,
    val_main_call1_v0_apply, val_main_call1_cst_apply]
  unfold rowLayer
  have hc : ∀ k : Fin 128, val_main_v21 (F := Ideal) x0 x1 x2 x3 x4 (ix2 r k)
      = catRow (fun k' => x0 (ix2 r k')) (fun k' => val_main_v20 (F := Ideal) x0 x1 x2 x3 x4 (ix2 r k')) k := fun k => by
    unfold val_main_v21; exact concat_ix2 _ _ _ r k
  simp only [val_main_v22_apply, node_lidx, node_ridx, node_bidx, hc]
  show max (_ + _) (Ideal.ofBits .f32 0x00000000#32) = _
  rw [Ideal.ofBits_zero_f32]

end Cert.ReferenceIdeal.RefValue

end
-- ==== Proof.Bridge.lean ====
/-
  The two programs compute one function. The reference's result is its update stage, which is the layer of the node
  features beside its scatter-added message stage, itself the layer of the gathered source rows beside the edge
  features; the kernel program's result is the same composition. The host operations around the layers are the
  same on both sides — the same index rows cut out, negative indices turned the same way, the same gather and
  the same scatter-add into zeros — except that the kernel narrows the node features before gathering them, which
  over the extended reals changes nothing.
-/
import proofs.«425765_j5128190951731_3_alg».proof.Proof.KernelValue
import proofs.«425765_j5128190951731_3_alg».proof.Proof.RefValue

noncomputable section

namespace Cert.Bridge

open Idealize.ShloMosaic Idealize.ShloMosaic.ValueIdx Cert.Layer

/-- The reference's result term is the kernel program's. -/
theorem result_eq (H : (⟨Cert.ReferenceIdeal.S50000x64, .f32⟩ : BufTy).Contents (Elt Ideal))
    (Xe : (⟨Cert.ReferenceIdeal.S1250000x64, .f32⟩ : BufTy).Contents (Elt Ideal))
    (ids : (⟨Cert.ReferenceIdeal.S2x1250000, .i32⟩ : BufTy).Contents (Elt Ideal))
    (MW : (⟨Cert.ReferenceIdeal.S64x128, .f32⟩ : BufTy).Contents (Elt Ideal))
    (Mb : (⟨Cert.ReferenceIdeal.S64, .f32⟩ : BufTy).Contents (Elt Ideal))
    (UW : (⟨Cert.ReferenceIdeal.S64x128, .f32⟩ : BufTy).Contents (Elt Ideal))
    (Ub : (⟨Cert.ReferenceIdeal.S64, .f32⟩ : BufTy).Contents (Elt Ideal)) :
    Cert.ReferenceIdeal.Read.val_main_v27 (F := Ideal) H Xe ids MW Mb UW Ub
      = Cert.KernelIdeal.KernelValue.result H Xe ids MW Mb UW Ub := by
  rw [Cert.ReferenceIdeal.RefValue.nodeStage_eq]
  unfold Cert.KernelIdeal.KernelValue.result
  refine congrArg (fun Z => layer (R := 50000) H Z UW (fun o => Ub (ix1 o))) ?_
  unfold Cert.ReferenceIdeal.Read.val_main_v20
  rw [Cert.ReferenceIdeal.RefValue.edgeStage_eq]
  unfold Cert.KernelIdeal.KernelValue.messages Cert.ReferenceIdeal.Read.val_main_v8
  rfl

end Cert.Bridge

end
-- ==== Proof.lean ====
/-
  The certificate of a two-layer message-passing step over a graph of 50000 nodes and 1250000 edges.

  Both programs compute, for every node `n` and output feature `o`,
      out[n, o] = max (∑ₖ [H[n, ·] ‖ Z[n, ·]][k] · U_W[o, k] + U_b[o]) 0,
  where `Z` sums, into the destination node of each edge, the messages
      Y[e, o] = max (∑ₖ [H[src e, ·] ‖ Xe[e, ·]][k] · M_W[o, k] + M_b[o]) 0,
  `[a ‖ b]` being two rows of 64 laid side by side. The kernel program computes each layer in blocks of 10000 rows
  on the device, narrowing its inputs to a shorter float format first; the reference computes each with one matrix
  product on the host. Over the extended reals a change of float format is the identity and a product accumulated
  into zero is the plain sum, so each block of a layer is the layer's rows (Proof/Payload, Proof/EdgeRegion,
  Proof/NodeRegion), the host operations between the layers are the same on both sides (Proof/Boundaries,
  Proof/KernelValue), the reference's stages are the same layer (Proof/RefValue), and the two results are one
  function of the arguments (Proof/Bridge). No law used needs the inputs finite.
-/
import proofs.«425765_j5128190951731_3_alg».proof.Defs
import proofs.«425765_j5128190951731_3_alg».proof.Proof.Gen.Kernel
import proofs.«425765_j5128190951731_3_alg».proof.Proof.Gen.Kernel.Skeleton
import proofs.«425765_j5128190951731_3_alg».proof.Proof.Gen.Kernel.Launch
import proofs.«425765_j5128190951731_3_alg».proof.Proof.Gen.Kernel.Points
import proofs.«425765_j5128190951731_3_alg».proof.Proof.Gen.Kernel.Frame
import proofs.«425765_j5128190951731_3_alg».proof.Proof.Gen.KernelIdeal
import proofs.«425765_j5128190951731_3_alg».proof.Proof.Gen.KernelIdeal.Skeleton
import proofs.«425765_j5128190951731_3_alg».proof.Proof.Gen.KernelIdeal.Launch
import proofs.«425765_j5128190951731_3_alg».proof.Proof.Gen.KernelIdeal.Points
import proofs.«425765_j5128190951731_3_alg».proof.Proof.Gen.KernelIdeal.Frame
import proofs.«425765_j5128190951731_3_alg».proof.Proof.Gen.ReferenceIdeal
import proofs.«425765_j5128190951731_3_alg».proof.Proof.Gen.ReferenceIdeal.Run
import proofs.«425765_j5128190951731_3_alg».proof.Proof.Gen.ReferenceIdeal.Read
import proofs.«425765_j5128190951731_3_alg».proof.Proof.Gen.Pre_finite_inputs
import proofs.«425765_j5128190951731_3_alg».proof.Proof.Bridge
import Idealize.ShloMosaic.Adequacy
import Idealize.ShloMosaic.Init

noncomputable section

namespace Cert.Proof

open Idealize.ShloMosaic Idealize.SL.Sem

/-- The two idealized programs, run from memories agreeing on the arguments, end with one result: the kernel
    program's run read as `KernelValue.result` of the arguments, the reference's generated run read as the same
    function (`Bridge.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
